-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v65)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v65) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v88) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x20 : Shape := ⟨2, ![100000, 20]⟩
abbrev S2x6400000 : Shape := ⟨2, ![2, 6400000]⟩
abbrev S20x16 : Shape := ⟨2, ![20, 16]⟩
abbrev S16 : Shape := ⟨1, ![16]⟩
abbrev S16x2 : Shape := ⟨2, ![16, 2]⟩
abbrev S2 : Shape := ⟨1, ![2]⟩
abbrev S_ : Shape := ⟨0, ![]⟩

class Facts : Prop where
  bcast_S_S100000x20 : S_.BroadcastsInDim S100000x20 (![] : Fin 0 → Fin S100000x20.rank)
  reducesTo_S100000x20_S_d0_1 : S100000x20.ReducesTo [0, 1] S_
  h_S_ : 0 < S_.numel
  bcast_S_S20x16 : S_.BroadcastsInDim S20x16 (![] : Fin 0 → Fin S20x16.rank)
  reducesTo_S20x16_S_d0_1 : S20x16.ReducesTo [0, 1] S_
  bcast_S_S16 : S_.BroadcastsInDim S16 (![] : Fin 0 → Fin S16.rank)
  reducesTo_S16_S_d0 : S16.ReducesTo [0] S_
  bcast_S_S16x2 : S_.BroadcastsInDim S16x2 (![] : Fin 0 → Fin S16x2.rank)
  reducesTo_S16x2_S_d0_1 : S16x2.ReducesTo [0, 1] S_
  bcast_S_S2 : S_.BroadcastsInDim S2 (![] : Fin 0 → Fin S2.rank)
  reducesTo_S2_S_d0 : S2.ReducesTo [0] S_

variable [Facts]

def fn_part1 {F : FTy → Type} [FloatOps F] (main_arg5 : FVec F S2 .f32) (main_v13 : IVec S_ 1) (main_v16 : IVec S16x2 1) : IVec S_ 1 :=
  let main_c_5 : IVec S_ 1 := constantI S_ 1 1#1
  let main_v17 : IVec S_ 1 := (fun x v => Host.reduce IntOp.andi x v reducesTo_S16x2_S_d0_1 h_S_) main_v16 main_c_5
  let main_v18 : IVec S_ 1 := andi main_v13 main_v17
  let main_v19 : FVec F S2 .f32 := Host.absf main_arg5
  let main_cst_6 : FVec F S_ .f32 := constant S_ .f32 0x7F800000#32
  let main_v20 : FVec F S2 .f32 := broadcastInDim S2 ![] bcast_S_S2 main_cst_6
  let main_v21 : IVec S2 1 := cmpf .olt main_v19 main_v20
  let main_c_7 : IVec S_ 1 := constantI S_ 1 1#1
  let main_v22 : IVec S_ 1 := (fun x v => Host.reduce IntOp.andi x v reducesTo_S2_S_d0 h_S_) main_v21 main_c_7
  let main_v23 : IVec S_ 1 := andi main_v18 main_v22
  main_v23

def fn {F : FTy → Type} [FloatOps F] (main_arg0 : FVec F S100000x20 .f32) (main_arg1 : IVec S2x6400000 32) (main_arg2 : FVec F S20x16 .f32) (main_arg3 : FVec F S16 .f32) (main_arg4 : FVec F S16x2 .f32) (main_arg5 : FVec F S2 .f32) : IVec S_ 1 :=
  let main_v0 : FVec F S100000x20 .f32 := Host.absf main_arg0
  let main_cst : FVec F S_ .f32 := constant S_ .f32 0x7F800000#32
  let main_v1 : FVec F S100000x20 .f32 := broadcastInDim S100000x20 ![] bcast_S_S100000x20 main_cst
  let main_v2 : IVec S100000x20 1 := cmpf .olt main_v0 main_v1
  let main_c : IVec S_ 1 := constantI S_ 1 1#1
  let main_v3 : IVec S_ 1 := (fun x v => Host.reduce IntOp.andi x v reducesTo_S100000x20_S_d0_1 h_S_) main_v2 main_c
  let main_v4 : FVec F S20x16 .f32 := Host.absf main_arg2
  let main_cst_0 : FVec F S_ .f32 := constant S_ .f32 0x7F800000#32
  let main_v5 : FVec F S20x16 .f32 := broadcastInDim S20x16 ![] bcast_S_S20x16 main_cst_0
  let main_v6 : IVec S20x16 1 := cmpf .olt main_v4 main_v5
  let main_c_1 : IVec S_ 1 := constantI S_ 1 1#1
  let main_v7 : IVec S_ 1 := (fun x v => Host.reduce IntOp.andi x v reducesTo_S20x16_S_d0_1 h_S_) main_v6 main_c_1
  let main_v8 : IVec S_ 1 := andi main_v3 main_v7
  let main_v9 : FVec F S16 .f32 := Host.absf main_arg3
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  let main_c_3 : IVec S_ 1 := constantI S_ 1 1#1
  let main_v12 : IVec S_ 1 := (fun x v => Host.reduce IntOp.andi x v reducesTo_S16_S_d0 h_S_) main_v11 main_c_3
  let main_v13 : IVec S_ 1 := andi main_v8 main_v12
  let main_v14 : FVec F S16x2 .f32 := Host.absf main_arg4
  let main_cst_4 : FVec F S_ .f32 := constant S_ .f32 0x7F800000#32
  let main_v15 : FVec F S16x2 .f32 := broadcastInDim S16x2 ![] bcast_S_S16x2 main_cst_4
  let main_v16 : IVec S16x2 1 := cmpf .olt main_v14 main_v15
  fn_part1 (F := F) main_arg5 main_v13 main_v16
-- ==== Kernel.lean ====
abbrev S100000x20 : Shape := ⟨2, ![100000, 20]⟩
abbrev S2x6400000 : Shape := ⟨2, ![2, 6400000]⟩
abbrev S20x16 : Shape := ⟨2, ![20, 16]⟩
abbrev S16 : Shape := ⟨1, ![16]⟩
abbrev S16x2 : Shape := ⟨2, ![16, 2]⟩
abbrev S2 : Shape := ⟨1, ![2]⟩
abbrev S100000 : Shape := ⟨1, ![100000]⟩
abbrev S1x6400000 : Shape := ⟨2, ![1, 6400000]⟩
abbrev S6400000 : Shape := ⟨1, ![6400000]⟩
abbrev S6500000 : Shape := ⟨1, ![6500000]⟩
abbrev S_ : Shape := ⟨0, ![]⟩
abbrev S6500000x1 : Shape := ⟨2, ![6500000, 1]⟩
abbrev S100000x16 : Shape := ⟨2, ![100000, 16]⟩
abbrev S10000x20 : Shape := ⟨2, ![10000, 20]⟩
abbrev S10000x16 : Shape := ⟨2, ![10000, 16]⟩
abbrev S6500000x16 : Shape := ⟨2, ![6500000, 16]⟩
abbrev S1x16 : Shape := ⟨2, ![1, 16]⟩
abbrev S100000x2 : Shape := ⟨2, ![100000, 2]⟩
abbrev S10000x2 : Shape := ⟨2, ![10000, 2]⟩
abbrev S6500000x2 : Shape := ⟨2, ![6500000, 2]⟩
abbrev S1x2 : Shape := ⟨2, ![1, 2]⟩
abbrev S100000x1 : Shape := ⟨2, ![100000, 1]⟩

abbrev nBuf : Space → Nat
  | .hbm => 104
  | .vmem => 10
  | .smem => 0
  | _ => 0

abbrev bufTy : (tb : Table) → Fin (tcTables nBuf tb) → BufTy
  | .hbm, ⟨0, _⟩ => ⟨S100000x20, .f32⟩
  | .hbm, ⟨1, _⟩ => ⟨S2x6400000, .i32⟩
  | .hbm, ⟨2, _⟩ => ⟨S20x16, .f32⟩
  | .hbm, ⟨3, _⟩ => ⟨S16, .f32⟩
  | .hbm, ⟨4, _⟩ => ⟨S16x2, .f32⟩
  | .hbm, ⟨5, _⟩ => ⟨S2, .f32⟩
  | .hbm, ⟨6, _⟩ => ⟨S100000, .i32⟩
  | .hbm, ⟨7, _⟩ => ⟨S1x6400000, .i32⟩
  | .hbm, ⟨8, _⟩ => ⟨S6400000, .i32⟩
  | .hbm, ⟨9, _⟩ => ⟨S6500000, .i32⟩
  | .hbm, ⟨10, _⟩ => ⟨S1x6400000, .i32⟩
  | .hbm, ⟨11, _⟩ => ⟨S6400000, .i32⟩
  | .hbm, ⟨12, _⟩ => ⟨S6500000, .i32⟩
  | .hbm, ⟨13, _⟩ => ⟨S_, .f32⟩
  | .hbm, ⟨14, _⟩ => ⟨S6500000, .f32⟩
  | .hbm, ⟨15, _⟩ => ⟨S_, .f32⟩
  | .hbm, ⟨16, _⟩ => ⟨S100000, .f32⟩
  | .hbm, ⟨17, _⟩ => ⟨S6500000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S100000, .f32⟩
  | .hbm, ⟨23, _⟩ => ⟨S_, .f32⟩
  | .hbm, ⟨24, _⟩ => ⟨S_, .f32⟩
  | .hbm, ⟨25, _⟩ => ⟨S100000, .f32⟩
  | .hbm, ⟨26, _⟩ => ⟨S100000, .f32⟩
  | .hbm, ⟨27, _⟩ => ⟨S_, .i32⟩
  | .hbm, ⟨28, _⟩ => ⟨S6500000, .i32⟩
  | .hbm, ⟨29, _⟩ => ⟨S6500000, .i1⟩
  | .hbm, ⟨30, _⟩ => ⟨S_, .i32⟩
  | .hbm, ⟨31, _⟩ => ⟨S6500000, .i32⟩
  | .hbm, ⟨32, _⟩ => ⟨S6500000, .i32⟩
  | .hbm, ⟨33, _⟩ => ⟨S6500000, .i32⟩
  | .hbm, ⟨34, _⟩ => ⟨S6500000x1, .i32⟩
  | .hbm, ⟨35, _⟩ => ⟨S6500000, .f32⟩
  | .hbm, ⟨36, _⟩ => ⟨S_, .i32⟩
  | .hbm, ⟨37, _⟩ => ⟨S6500000, .i32⟩
  | .hbm, ⟨38, _⟩ => ⟨S6500000, .i1⟩
  | .hbm, ⟨39, _⟩ => ⟨S_, .i32⟩
  | .hbm, ⟨40, _⟩ => ⟨S6500000, .i32⟩
  | .hbm, ⟨41, _⟩ => ⟨S6500000, .i32⟩
  | .hbm, ⟨42, _⟩ => ⟨S6500000, .i32⟩
  | .hbm, ⟨43, _⟩ => ⟨S6500000x1, .i32⟩
  | .hbm, ⟨44, _⟩ => ⟨S6500000, .f32⟩
  | .hbm, ⟨45, _⟩ => ⟨S6500000, .f32⟩
  | .hbm, ⟨46, _⟩ => ⟨S100000x16, .f32⟩
  | .hbm, ⟨47, _⟩ => ⟨S_, .i32⟩
  | .hbm, ⟨48, _⟩ => ⟨S6500000, .i32⟩
  | .hbm, ⟨49, _⟩ => ⟨S6500000, .i1⟩
  | .hbm, ⟨50, _⟩ => ⟨S_, .i32⟩
  | .hbm, ⟨51, _⟩ => ⟨S6500000, .i32⟩
  | .hbm, ⟨52, _⟩ => ⟨S6500000, .i32⟩
  | .hbm, ⟨53, _⟩ => ⟨S6500000, .i32⟩
  | .hbm, ⟨54, _⟩ => ⟨S6500000x1, .i32⟩
  | .hbm, ⟨55, _⟩ => ⟨S6500000x16, .f32⟩
  | .hbm, ⟨56, _⟩ => ⟨S6500000x1, .f32⟩
  | .hbm, ⟨57, _⟩ => ⟨S6500000x16, .f32⟩
  | .hbm, ⟨58, _⟩ => ⟨S6500000x16, .f32⟩
  | .hbm, ⟨59, _⟩ => ⟨S_, .f32⟩
  | .hbm, ⟨60, _⟩ => ⟨S100000x16, .f32⟩
  | .hbm, ⟨61, _⟩ => ⟨S6500000x1, .i32⟩
  | .hbm, ⟨62, _⟩ => ⟨S100000x16, .f32⟩
  | .hbm, ⟨63, _⟩ => ⟨S1x16, .f32⟩
  | .hbm, ⟨64, _⟩ => ⟨S100000x16, .f32⟩
  | .hbm, ⟨65, _⟩ => ⟨S100000x16, .f32⟩
  | .hbm, ⟨66, _⟩ => ⟨S_, .f32⟩
  | .hbm, ⟨67, _⟩ => ⟨S100000x16, .f32⟩
  | .hbm, ⟨68, _⟩ => ⟨S100000x16, .f32⟩
  | .hbm, ⟨69, _⟩ => ⟨S100000x2, .f32⟩
  | .hbm, ⟨70, _⟩ => ⟨S_, .i32⟩
  | .hbm, ⟨71, _⟩ => ⟨S6500000, .i32⟩
  | .hbm, ⟨72, _⟩ => ⟨S6500000, .i1⟩
  | .hbm, ⟨73, _⟩ => ⟨S_, .i32⟩
  | .hbm, ⟨74, _⟩ => ⟨S6500000, .i32⟩
  | .hbm, ⟨75, _⟩ => ⟨S6500000, .i32⟩
  | .hbm, ⟨76, _⟩ => ⟨S6500000, .i32⟩
  | .hbm, ⟨77, _⟩ => ⟨S6500000x1, .i32⟩
  | .hbm, ⟨78, _⟩ => ⟨S6500000x2, .f32⟩
  | .hbm, ⟨79, _⟩ => ⟨S6500000x1, .f32⟩
  | .hbm, ⟨80, _⟩ => ⟨S6500000x2, .f32⟩
  | .hbm, ⟨81, _⟩ => ⟨S6500000x2, .f32⟩
  | .hbm, ⟨82, _⟩ => ⟨S_, .f32⟩
  | .hbm, ⟨83, _⟩ => ⟨S100000x2, .f32⟩
  | .hbm, ⟨84, _⟩ => ⟨S6500000x1, .i32⟩
  | .hbm, ⟨85, _⟩ => ⟨S100000x2, .f32⟩
  | .hbm, ⟨86, _⟩ => ⟨S1x2, .f32⟩
  | .hbm, ⟨87, _⟩ => ⟨S100000x2, .f32⟩
  | .hbm, ⟨88, _⟩ => ⟨S100000x2, .f32⟩
  | .hbm, ⟨89, _⟩ => ⟨S_, .f32⟩
  | .hbm, ⟨90, _⟩ => ⟨S100000, .f32⟩
  | .hbm, ⟨91, _⟩ => ⟨S_, .f32⟩
  | .hbm, ⟨92, _⟩ => ⟨S100000, .f32⟩
  | .hbm, ⟨93, _⟩ => ⟨S100000, .f32⟩
  | .hbm, ⟨94, _⟩ => ⟨S100000x1, .f32⟩
  | .hbm, ⟨95, _⟩ => ⟨S100000x2, .f32⟩
  | .hbm, ⟨96, _⟩ => ⟨S100000x2, .f32⟩
  | .hbm, ⟨97, _⟩ => ⟨S100000x2, .f32⟩
  | .hbm, ⟨98, _⟩ => ⟨S_, .f32⟩
  | .hbm, ⟨99, _⟩ => ⟨S100000, .f32⟩
  | .hbm, ⟨100, _⟩ => ⟨S100000x1, .f32⟩
  | .hbm, ⟨101, _⟩ => ⟨S100000x1, .f32⟩
  | .hbm, ⟨102, _⟩ => ⟨S100000x2, .f32⟩
  | .hbm, ⟨103, _⟩ => ⟨S100000x2, .f32⟩
  | .local _ .vmem, ⟨0, _⟩ => ⟨S10000x20, .f32⟩
  | .local _ .vmem, ⟨1, _⟩ => ⟨S10000x20, .f32⟩
  | .local _ .vmem, ⟨2, _⟩ => ⟨S20x16, .f32⟩
  | .local _ .vmem, ⟨3, _⟩ => ⟨S10000x16, .f32⟩
  | .local _ .vmem, ⟨4, _⟩ => ⟨S10000x16, .f32⟩
  | .local _ .vmem, ⟨5, _⟩ => ⟨S10000x16, .f32⟩
  | .local _ .vmem, ⟨6, _⟩ => ⟨S10000x16, .f32⟩
  | .local _ .vmem, ⟨7, _⟩ => ⟨S16x2, .f32⟩
  | .local _ .vmem, ⟨8, _⟩ => ⟨S10000x2, .f32⟩
  | .local _ .vmem, ⟨9, _⟩ => ⟨S10000x2, .f32⟩
  | _, _ => ⟨S100000x20, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_call0_v0 : Ref sig .tc := ⟨.hbm, 24, rfl⟩
abbrev main_call0_v1 : Ref sig .tc := ⟨.hbm, 25, rfl⟩
abbrev main_v14 : Ref sig .tc := ⟨.hbm, 26, rfl⟩
abbrev main_c : Ref sig .tc := ⟨.hbm, 27, rfl⟩
abbrev main_v15 : Ref sig .tc := ⟨.hbm, 28, rfl⟩
abbrev main_v16 : Ref sig .tc := ⟨.hbm, 29, rfl⟩
abbrev main_c_3 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_c_4 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_c_9 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_v54 : Ref sig .tc := ⟨.hbm, 77, rfl⟩
abbrev main_v55 : Ref sig .tc := ⟨.hbm, 78, rfl⟩
abbrev main_v56 : Ref sig .tc := ⟨.hbm, 79, rfl⟩
abbrev main_v57 : Ref sig .tc := ⟨.hbm, 80, rfl⟩
abbrev main_v58 : Ref sig .tc := ⟨.hbm, 81, rfl⟩
abbrev main_cst_11 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_call2_cst : Ref sig .tc := ⟨.hbm, 89, rfl⟩
abbrev main_call2_v0 : Ref sig .tc := ⟨.hbm, 90, rfl⟩
abbrev main_call2_cst_0 : Ref sig .tc := ⟨.hbm, 91, rfl⟩
abbrev main_call2_v1 : Ref sig .tc := ⟨.hbm, 92, rfl⟩
abbrev main_call2_v2 : Ref sig .tc := ⟨.hbm, 93, rfl⟩
abbrev main_call2_v3 : Ref sig .tc := ⟨.hbm, 94, rfl⟩
abbrev main_call2_v4 : Ref sig .tc := ⟨.hbm, 95, rfl⟩
abbrev main_call2_v5 : Ref sig .tc := ⟨.hbm, 96, rfl⟩
abbrev main_call2_v6 : Ref sig .tc := ⟨.hbm, 97, rfl⟩
abbrev main_call2_cst_1 : Ref sig .tc := ⟨.hbm, 98, rfl⟩
abbrev main_call2_v7 : Ref sig .tc := ⟨.hbm, 99, rfl⟩
abbrev main_call2_v8 : Ref sig .tc := ⟨.hbm, 100, rfl⟩
abbrev main_call2_v9 : Ref sig .tc := ⟨.hbm, 101, rfl⟩
abbrev main_call2_v10 : Ref sig .tc := ⟨.hbm, 102, rfl⟩
abbrev main_v65 : Ref sig .tc := ⟨.hbm, 103, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x20 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S20x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S10000x16 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x16 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S16x2 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S10000x2 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  slices_S2x6400000_S1x6400000_0_0 : S2x6400000.Slices ![0, 0] S1x6400000
  shapeCasts_S1x6400000_S6400000 : S1x6400000.ShapeCasts S6400000
  concatenates_S6400000_S100000_S6500000_d0 : Shape.Concatenates [S6400000, S100000] S6500000 0
  slices_S2x6400000_S1x6400000_1_0 : S2x6400000.Slices ![1, 0] S1x6400000
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  inb_S10000x20_S10000x20_0_0 : ∀ a, (![0, 0] : Fin 2 → Nat) a + S10000x20.size a ≤ S10000x20.size a
  h_S10000x20 : 0 < S10000x20.numel
  bitsLt_bf16_f32 : FTy.bits .bf16 < FTy.bits .f32
  inb_S20x16_S20x16_0_0 : ∀ a, (![0, 0] : Fin 2 → Nat) a + S20x16.size a ≤ S20x16.size a
  h_S20x16 : 0 < S20x16.numel
  inb_S10000x16_S10000x16_0_0 : ∀ a, (![0, 0] : Fin 2 → Nat) a + S10000x16.size a ≤ S10000x16.size a
  h_S10000x16 : 0 < S10000x16.numel
  bcast_S6500000x1_S6500000x16_0_1 : S6500000x1.BroadcastsInDim S6500000x16 (![0, 1] : Fin 2 → Fin S6500000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  shapeCasts_S10000x16_S10000x16 : S10000x16.ShapeCasts S10000x16
  inb_S16x2_S16x2_0_0 : ∀ a, (![0, 0] : Fin 2 → Nat) a + S16x2.size a ≤ S16x2.size a
  h_S16x2 : 0 < S16x2.numel
  inb_S10000x2_S10000x2_0_0 : ∀ a, (![0, 0] : Fin 2 → Nat) a + S10000x2.size a ≤ S10000x2.size a
  h_S10000x2 : 0 < S10000x2.numel
  bcast_S6500000x1_S6500000x2_0_1 : S6500000x1.BroadcastsInDim S6500000x2 (![0, 1] : Fin 2 → Fin S6500000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  dot_S10000x20_S20x16_S10000x16_1_0_0_1_n_n_wf : DotDims.WF S10000x20 S20x16 S10000x16 [1] [0] [0] [1] [] []
  gather_S100000x16_S6500000x1_S6500000x16_1_0_n_n_0_1_116_wf : GatherDims.WF S100000x16 S6500000x1 S6500000x16 [1] [0] [] [0] [] 1 ![1, 16]
  scatter_S100000x16_S6500000x1_S6500000x16_1_0_0_1_wf : ScatterDims.WF S100000x16 S6500000x1 S6500000x16 [1] [0] [0] 1
  dot_S10000x16_S16x2_S10000x2_1_0_0_1_n_n_wf : DotDims.WF S10000x16 S16x2 S10000x2 [1] [0] [0] [1] [] []
  gather_S100000x2_S6500000x1_S6500000x2_1_0_n_n_0_1_12_wf : GatherDims.WF S100000x2 S6500000x1 S6500000x2 [1] [0] [] [0] [] 1 ![1, 2]
  scatter_S100000x2_S6500000x1_S6500000x2_1_0_0_1_wf : ScatterDims.WF S100000x2 S6500000x1 S6500000x2 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x20.size a ≤ S100000x20.size a
  hwx0_0 : ∀ i : grid0.Coords, EltTy.bits .f32 = 32 ∨ (Rect.block (s := S100000x20) S10000x20.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S20x16.size a ≤ S20x16.size a
  hwx0_1 : ∀ i : grid0.Coords, EltTy.bits .f32 = 32 ∨ (Rect.block (s := S20x16) S20x16.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x16.size a ≤ S100000x16.size a
  hwx0_2 : ∀ i : grid0.Coords, EltTy.bits .f32 = 32 ∨ (Rect.block (s := S100000x16) S10000x16.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x16.size a ≤ S100000x16.size a
  hwx1_0 : ∀ i : grid1.Coords, EltTy.bits .f32 = 32 ∨ (Rect.block (s := S100000x16) S10000x16.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S16x2.size a ≤ S16x2.size a
  hwx1_1 : ∀ i : grid1.Coords, EltTy.bits .f32 = 32 ∨ (Rect.block (s := S16x2) S16x2.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x2.size a ≤ S100000x2.size a
  hwx1_2 : ∀ i : grid1.Coords, EltTy.bits .f32 = 32 ∨ (Rect.block (s := S100000x2) S10000x2.size (cc1_transform_2 i) (hinb1_2 i)).WholeWords (EltTy.packing .f32)

variable [Facts₀]

def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def dot_S10000x20_S20x16_S10000x16_1_0_0_1_n_n : DotDims S10000x20 S20x16 S10000x16 where
  lhsContracting := [1]
  rhsContracting := [0]
  lhsNonContracting := [0]
  rhsNonContracting := [1]
  lhsBatch := []
  rhsBatch := []
  wf := dot_S10000x20_S20x16_S10000x16_1_0_0_1_n_n_wf
def gather_S100000x16_S6500000x1_S6500000x16_1_0_n_n_0_1_116 : GatherDims S100000x16 S6500000x1 S6500000x16 where
  offsetDims := [1]
  collapsedSliceDims := [0]
  operandBatchingDims := []
  startIndicesBatchingDims := []
  startIndexMap := [0]
  indexVectorDim := 1
  sliceSizes := ![1, 16]
  wf := gather_S100000x16_S6500000x1_S6500000x16_1_0_n_n_0_1_116_wf
def scatter_S100000x16_S6500000x1_S6500000x16_1_0_0_1 : ScatterDims S100000x16 S6500000x1 S6500000x16 where
  updateWindowDims := [1]
  insertedWindowDims := [0]
  scatterDimsToOperandDims := [0]
  indexVectorDim := 1
  wf := scatter_S100000x16_S6500000x1_S6500000x16_1_0_0_1_wf
def dot_S10000x16_S16x2_S10000x2_1_0_0_1_n_n : DotDims S10000x16 S16x2 S10000x2 where
  lhsContracting := [1]
  rhsContracting := [0]
  lhsNonContracting := [0]
  rhsNonContracting := [1]
  lhsBatch := []
  rhsBatch := []
  wf := dot_S10000x16_S16x2_S10000x2_1_0_0_1_n_n_wf
def gather_S100000x2_S6500000x1_S6500000x2_1_0_n_n_0_1_12 : GatherDims S100000x2 S6500000x1 S6500000x2 where
  offsetDims := [1]
  collapsedSliceDims := [0]
  operandBatchingDims := []
  startIndicesBatchingDims := []
  startIndexMap := [0]
  indexVectorDim := 1
  sliceSizes := ![1, 2]
  wf := gather_S100000x2_S6500000x1_S6500000x2_1_0_n_n_0_1_12_wf
def scatter_S100000x2_S6500000x1_S6500000x2_1_0_0_1 : ScatterDims S100000x2 S6500000x1 S6500000x2 where
  updateWindowDims := [1]
  insertedWindowDims := [0]
  scatterDimsToOperandDims := [0]
  indexVectorDim := 1
  wf := scatter_S100000x2_S6500000x1_S6500000x2_1_0_0_1_wf

abbrev win0_0 : Pipeline.Window sig grid0 :=
  Pipeline.Window.ofSpec (Memref.whole main_arg0) S10000x20.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S20x16.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v30) S10000x16.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v47) S10000x16.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg4) S16x2.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v48) S10000x2.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S100000x20 : Shape := ⟨2, ![100000, 20]⟩
abbrev S2x6400000 : Shape := ⟨2, ![2, 6400000]⟩
abbrev S20x16 : Shape := ⟨2, ![20, 16]⟩
abbrev S16 : Shape := ⟨1, ![16]⟩
abbrev S16x2 : Shape := ⟨2, ![16, 2]⟩
abbrev S2 : Shape := ⟨1, ![2]⟩
abbrev S100000 : Shape := ⟨1, ![100000]⟩
abbrev S1x6400000 : Shape := ⟨2, ![1, 6400000]⟩
abbrev S6400000 : Shape := ⟨1, ![6400000]⟩
abbrev S6500000 : Shape := ⟨1, ![6500000]⟩
abbrev S100000x16 : Shape := ⟨2, ![100000, 16]⟩
abbrev S_ : Shape := ⟨0, ![]⟩
abbrev S6500000x1 : Shape := ⟨2, ![6500000, 1]⟩
abbrev S6500000x16 : Shape := ⟨2, ![6500000, 16]⟩
abbrev S1x16 : Shape := ⟨2, ![1, 16]⟩
abbrev S100000x2 : Shape := ⟨2, ![100000, 2]⟩
abbrev S6500000x2 : Shape := ⟨2, ![6500000, 2]⟩
abbrev S1x2 : Shape := ⟨2, ![1, 2]⟩
abbrev S100000x1 : Shape := ⟨2, ![100000, 1]⟩

abbrev nBuf : Space → Nat
  | .hbm => 137
  | .vmem => 0
  | .smem => 0
  | _ => 0

abbrev hbmTy0_0 (i : Nat) : BufTy := match i % 128 with
  | 0 => ⟨S100000x20, .f32⟩
  | 1 => ⟨S2x6400000, .i32⟩
  | 2 => ⟨S20x16, .f32⟩
  | 3 => ⟨S16, .f32⟩
  | 4 => ⟨S16x2, .f32⟩
  | 5 => ⟨S2, .f32⟩
  | 6 => ⟨S100000, .i32⟩
  | 7 => ⟨S1x6400000, .i32⟩
  | 8 => ⟨S6400000, .i32⟩
  | 9 => ⟨S6500000, .i32⟩
  | 10 => ⟨S1x6400000, .i32⟩
  | 11 => ⟨S6400000, .i32⟩
  | 12 => ⟨S6500000, .i32⟩
  | 13 => ⟨S100000x16, .f32⟩
  | 14 => ⟨S_, .f32⟩
  | 15 => ⟨S6500000, .f32⟩
  | 16 => ⟨S_, .f32⟩
  | 17 => ⟨S100000, .f32⟩
  | 18 => ⟨S6500000x1, .i32⟩
  | 19 => ⟨S100000, .f32⟩
  | 20 => ⟨S_, .f32⟩
  | 21 => ⟨S100000, .f32⟩
  | 22 => ⟨S100000, .i1⟩
  | 23 => ⟨S100000, .f32⟩
  | 24 => ⟨S_, .f32⟩
  | 25 => ⟨S_, .f32⟩
  | 26 => ⟨S100000, .f32⟩
  | 27 => ⟨S100000, .f32⟩
  | 28 => ⟨S_, .i32⟩
  | 29 => ⟨S6500000, .i32⟩
  | 30 => ⟨S6500000, .i1⟩
  | 31 => ⟨S_, .i32⟩
  | 32 => ⟨S6500000, .i32⟩
  | 33 => ⟨S6500000, .i32⟩
  | 34 => ⟨S6500000, .i32⟩
  | 35 => ⟨S6500000x1, .i32⟩
  | 36 => ⟨S6500000, .f32⟩
  | 37 => ⟨S_, .i32⟩
  | 38 => ⟨S6500000, .i32⟩
  | 39 => ⟨S6500000, .i1⟩
  | 40 => ⟨S_, .i32⟩
  | 41 => ⟨S6500000, .i32⟩
  | 42 => ⟨S6500000, .i32⟩
  | 43 => ⟨S6500000, .i32⟩
  | 44 => ⟨S6500000x1, .i32⟩
  | 45 => ⟨S6500000, .f32⟩
  | 46 => ⟨S6500000, .f32⟩
  | 47 => ⟨S_, .i32⟩
  | 48 => ⟨S6500000, .i32⟩
  | 49 => ⟨S6500000, .i1⟩
  | 50 => ⟨S_, .i32⟩
  | 51 => ⟨S6500000, .i32⟩
  | 52 => ⟨S6500000, .i32⟩
  | 53 => ⟨S6500000, .i32⟩
  | 54 => ⟨S6500000x1, .i32⟩
  | 55 => ⟨S6500000x16, .f32⟩
  | 56 => ⟨S6500000x1, .f32⟩
  | 57 => ⟨S6500000x16, .f32⟩
  | 58 => ⟨S6500000x16, .f32⟩
  | 59 => ⟨S_, .f32⟩
  | 60 => ⟨S100000x16, .f32⟩
  | 61 => ⟨S6500000x1, .i32⟩
  | 62 => ⟨S100000x16, .f32⟩
  | 63 => ⟨S1x16, .f32⟩
  | 64 => ⟨S100000x16, .f32⟩
  | 65 => ⟨S100000x16, .f32⟩
  | 66 => ⟨S_, .f32⟩
  | 67 => ⟨S100000x16, .f32⟩
  | 68 => ⟨S100000x16, .f32⟩
  | 69 => ⟨S100000x2, .f32⟩
  | 70 => ⟨S_, .f32⟩
  | 71 => ⟨S6500000, .f32⟩
  | 72 => ⟨S_, .f32⟩
  | 73 => ⟨S100000, .f32⟩
  | 74 => ⟨S6500000x1, .i32⟩
  | 75 => ⟨S100000, .f32⟩
  | 76 => ⟨S_, .f32⟩
  | 77 => ⟨S100000, .f32⟩
  | 78 => ⟨S100000, .i1⟩
  | 79 => ⟨S100000, .f32⟩
  | 80 => ⟨S_, .f32⟩
  | 81 => ⟨S_, .f32⟩
  | 82 => ⟨S100000, .f32⟩
  | 83 => ⟨S100000, .f32⟩
  | 84 => ⟨S_, .i32⟩
  | 85 => ⟨S6500000, .i32⟩
  | 86 => ⟨S6500000, .i1⟩
  | 87 => ⟨S_, .i32⟩
  | 88 => ⟨S6500000, .i32⟩
  | 89 => ⟨S6500000, .i32⟩
  | 90 => ⟨S6500000, .i32⟩
  | 91 => ⟨S6500000x1, .i32⟩
  | 92 => ⟨S6500000, .f32⟩
  | 93 => ⟨S_, .i32⟩
  | 94 => ⟨S6500000, .i32⟩
  | 95 => ⟨S6500000, .i1⟩
  | 96 => ⟨S_, .i32⟩
  | 97 => ⟨S6500000, .i32⟩
  | 98 => ⟨S6500000, .i32⟩
  | 99 => ⟨S6500000, .i32⟩
  | 100 => ⟨S6500000x1, .i32⟩
  | 101 => ⟨S6500000, .f32⟩
  | 102 => ⟨S6500000, .f32⟩
  | 103 => ⟨S_, .i32⟩
  | 104 => ⟨S6500000, .i32⟩
  | 105 => ⟨S6500000, .i1⟩
  | 106 => ⟨S_, .i32⟩
  | 107 => ⟨S6500000, .i32⟩
  | 108 => ⟨S6500000, .i32⟩
  | 109 => ⟨S6500000, .i32⟩
  | 110 => ⟨S6500000x1, .i32⟩
  | 111 => ⟨S6500000x2, .f32⟩
  | 112 => ⟨S6500000x1, .f32⟩
  | 113 => ⟨S6500000x2, .f32⟩
  | 114 => ⟨S6500000x2, .f32⟩
  | 115 => ⟨S_, .f32⟩
  | 116 => ⟨S100000x2, .f32⟩
  | 117 => ⟨S6500000x1, .i32⟩
  | 118 => ⟨S100000x2, .f32⟩
  | 119 => ⟨S1x2, .f32⟩
  | 120 => ⟨S100000x2, .f32⟩
  | 121 => ⟨S100000x2, .f32⟩
  | 122 => ⟨S_, .f32⟩
  | 123 => ⟨S100000, .f32⟩
  | 124 => ⟨S_, .f32⟩
  | 125 => ⟨S100000, .f32⟩
  | 126 => ⟨S100000, .f32⟩
  | 127 => ⟨S100000x1, .f32⟩
  | _ => ⟨S100000x20, .f32⟩

abbrev hbmTy0_1 (i : Nat) : BufTy := match i % 128 with
  | 0 => ⟨S100000x2, .f32⟩
  | 1 => ⟨S100000x2, .f32⟩
  | 2 => ⟨S100000x2, .f32⟩
  | 3 => ⟨S_, .f32⟩
  | 4 => ⟨S100000, .f32⟩
  | 5 => ⟨S100000x1, .f32⟩
  | 6 => ⟨S100000x1, .f32⟩
  | 7 => ⟨S100000x2, .f32⟩
  | 8 => ⟨S100000x2, .f32⟩
  | _ => ⟨S100000x20, .f32⟩

abbrev hbmTy (i : Nat) : BufTy := match i / 128 with
  | 0 => hbmTy0_0 i
  | 1 => hbmTy0_1 i
  | _ => ⟨S100000x20, .f32⟩

abbrev bufTy : (tb : Table) → Fin (tcTables nBuf tb) → BufTy
  | .hbm, ⟨i, _⟩ => hbmTy i
  | _, _ => ⟨S100000x20, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst : Ref sig .tc := ⟨.hbm, 14, rfl⟩
abbrev main_v8 : Ref sig .tc := ⟨.hbm, 15, rfl⟩
abbrev main_cst_0 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_cst_1 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_cst_2 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_c : Ref sig .tc := ⟨.hbm, 28, rfl⟩
abbrev main_v16 : Ref sig .tc := ⟨.hbm, 29, rfl⟩
abbrev main_v17 : Ref sig .tc := ⟨.hbm, 30, rfl⟩
abbrev main_c_3 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_c_4 : Ref sig .tc := ⟨.hbm, 37, rfl⟩
abbrev main_v23 : Ref sig .tc := ⟨.hbm, 38, rfl⟩
abbrev main_v24 : Ref sig .tc := ⟨.hbm, 39, rfl⟩
abbrev main_c_5 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_c_6 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_v35 : Ref sig .tc := ⟨.hbm, 53, rfl⟩
abbrev main_v36 : Ref sig .tc := ⟨.hbm, 54, rfl⟩
abbrev main_v37 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_cst_8 : Ref sig .tc := ⟨.hbm, 59, rfl⟩
abbrev main_v41 : Ref sig .tc := ⟨.hbm, 60, rfl⟩
abbrev main_v42 : Ref sig .tc := ⟨.hbm, 61, rfl⟩
abbrev main_v43 : Ref sig .tc := ⟨.hbm, 62, rfl⟩
abbrev main_v44 : Ref sig .tc := ⟨.hbm, 63, rfl⟩
abbrev main_v45 : Ref sig .tc := ⟨.hbm, 64, rfl⟩
abbrev main_v46 : Ref sig .tc := ⟨.hbm, 65, rfl⟩
abbrev main_call1_cst : Ref sig .tc := ⟨.hbm, 66, rfl⟩
abbrev main_call1_v0 : Ref sig .tc := ⟨.hbm, 67, rfl⟩
abbrev main_v47 : Ref sig .tc := ⟨.hbm, 68, rfl⟩
abbrev main_v48 : Ref sig .tc := ⟨.hbm, 69, rfl⟩
abbrev main_cst_9 : Ref sig .tc := ⟨.hbm, 70, rfl⟩
abbrev main_v49 : Ref sig .tc := ⟨.hbm, 71, rfl⟩
abbrev main_cst_10 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_cst_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_cst_12 : Ref sig .tc := ⟨.hbm, 80, rfl⟩
abbrev main_call2_v0 : Ref sig .tc := ⟨.hbm, 81, rfl⟩
abbrev main_call2_v1 : Ref sig .tc := ⟨.hbm, 82, rfl⟩
abbrev main_v56 : Ref sig .tc := ⟨.hbm, 83, rfl⟩
abbrev main_c_13 : Ref sig .tc := ⟨.hbm, 84, rfl⟩
abbrev main_v57 : Ref sig .tc := ⟨.hbm, 85, rfl⟩
abbrev main_v58 : Ref sig .tc := ⟨.hbm, 86, rfl⟩
abbrev main_c_14 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_c_15 : Ref sig .tc := ⟨.hbm, 93, rfl⟩
abbrev main_v64 : Ref sig .tc := ⟨.hbm, 94, rfl⟩
abbrev main_v65 : Ref sig .tc := ⟨.hbm, 95, rfl⟩
abbrev main_c_16 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_c_17 : Ref sig .tc := ⟨.hbm, 103, rfl⟩
abbrev main_v72 : Ref sig .tc := ⟨.hbm, 104, rfl⟩
abbrev main_v73 : Ref sig .tc := ⟨.hbm, 105, rfl⟩
abbrev main_c_18 : Ref sig .tc := ⟨.hbm, 106, rfl⟩
abbrev main_v74 : Ref sig .tc := ⟨.hbm, 107, rfl⟩
abbrev main_v75 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_cst_19 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_call3_cst : Ref sig .tc := ⟨.hbm, 122, rfl⟩
abbrev main_call3_v0 : Ref sig .tc := ⟨.hbm, 123, rfl⟩
abbrev main_call3_cst_0 : Ref sig .tc := ⟨.hbm, 124, rfl⟩
abbrev main_call3_v1 : Ref sig .tc := ⟨.hbm, 125, rfl⟩
abbrev main_call3_v2 : Ref sig .tc := ⟨.hbm, 126, rfl⟩
abbrev main_call3_v3 : Ref sig .tc := ⟨.hbm, 127, rfl⟩
abbrev main_call3_v4 : Ref sig .tc := ⟨.hbm, 128, rfl⟩
abbrev main_call3_v5 : Ref sig .tc := ⟨.hbm, 129, rfl⟩
abbrev main_call3_v6 : Ref sig .tc := ⟨.hbm, 130, rfl⟩
abbrev main_call3_cst_1 : Ref sig .tc := ⟨.hbm, 131, rfl⟩
abbrev main_call3_v7 : Ref sig .tc := ⟨.hbm, 132, rfl⟩
abbrev main_call3_v8 : Ref sig .tc := ⟨.hbm, 133, rfl⟩
abbrev main_call3_v9 : Ref sig .tc := ⟨.hbm, 134, rfl⟩
abbrev main_call3_v10 : Ref sig .tc := ⟨.hbm, 135, rfl⟩
abbrev main_v88 : Ref sig .tc := ⟨.hbm, 136, rfl⟩

abbrev nD : Nat := 1
abbrev τ : Topo := Topo.v7x

variable {F : FTy → Type} [FloatOps F]

class Facts₀ : Prop where
  slices_S2x6400000_S1x6400000_0_0 : S2x6400000.Slices ![0, 0] S1x6400000
  shapeCasts_S1x6400000_S6400000 : S1x6400000.ShapeCasts S6400000
  concatenates_S6400000_S100000_S6500000_d0 : Shape.Concatenates [S6400000, S100000] S6500000 0
  slices_S2x6400000_S1x6400000_1_0 : S2x6400000.Slices ![1, 0] S1x6400000
  bcast_S_S6500000 : S_.BroadcastsInDim S6500000 (![] : Fin 0 → Fin S6500000.rank)
  bcast_S_S100000 : S_.BroadcastsInDim S100000 (![] : Fin 0 → Fin S100000.rank)
  bcast_S6500000_S6500000x1_0 : S6500000.BroadcastsInDim S6500000x1 (![0] : Fin 1 → Fin S6500000x1.rank)
  bcast_S6500000x1_S6500000x16_0_1 : S6500000x1.BroadcastsInDim S6500000x16 (![0, 1] : Fin 2 → Fin S6500000x16.rank)
  bcast_S_S100000x16 : S_.BroadcastsInDim S100000x16 (![] : Fin 0 → Fin S100000x16.rank)
  bcast_S16_S1x16_1 : S16.BroadcastsInDim S1x16 (![1] : Fin 1 → Fin S1x16.rank)
  bcast_S1x16_S100000x16_0_1 : S1x16.BroadcastsInDim S100000x16 (![0, 1] : Fin 2 → Fin S100000x16.rank)
  bcast_S6500000x1_S6500000x2_0_1 : S6500000x1.BroadcastsInDim S6500000x2 (![0, 1] : Fin 2 → Fin S6500000x2.rank)
  bcast_S_S100000x2 : S_.BroadcastsInDim S100000x2 (![] : Fin 0 → Fin S100000x2.rank)
  bcast_S2_S1x2_1 : S2.BroadcastsInDim S1x2 (![1] : Fin 1 → Fin S1x2.rank)
  bcast_S1x2_S100000x2_0_1 : S1x2.BroadcastsInDim S100000x2 (![0, 1] : Fin 2 → Fin S100000x2.rank)
  reducesTo_S100000x2_S100000_d1 : S100000x2.ReducesTo [1] S100000
  h_S_ : 0 < S_.numel
  bcast_S100000_S100000x1_0 : S100000.BroadcastsInDim S100000x1 (![0] : Fin 1 → Fin S100000x1.rank)
  bcast_S100000x1_S100000x2_0_1 : S100000x1.BroadcastsInDim S100000x2 (![0, 1] : Fin 2 → Fin S100000x2.rank)
  dot_S100000x20_S20x16_S100000x16_1_0_0_1_n_n_wf : DotDims.WF S100000x20 S20x16 S100000x16 [1] [0] [0] [1] [] []
  scatter_S100000_S6500000x1_S6500000_n_0_0_1_wf : ScatterDims.WF S100000 S6500000x1 S6500000 [] [0] [0] 1
  gather_S100000_S6500000x1_S6500000_n_0_n_n_0_1_1_wf : GatherDims.WF S100000 S6500000x1 S6500000 [] [0] [] [0] [] 1 ![1]
  gather_S100000x16_S6500000x1_S6500000x16_1_0_n_n_0_1_116_wf : GatherDims.WF S100000x16 S6500000x1 S6500000x16 [1] [0] [] [0] [] 1 ![1, 16]
  scatter_S100000x16_S6500000x1_S6500000x16_1_0_0_1_wf : ScatterDims.WF S100000x16 S6500000x1 S6500000x16 [1] [0] [0] 1
  dot_S100000x16_S16x2_S100000x2_1_0_0_1_n_n_wf : DotDims.WF S100000x16 S16x2 S100000x2 [1] [0] [0] [1] [] []
  gather_S100000x2_S6500000x1_S6500000x2_1_0_n_n_0_1_12_wf : GatherDims.WF S100000x2 S6500000x1 S6500000x2 [1] [0] [] [0] [] 1 ![1, 2]
  scatter_S100000x2_S6500000x1_S6500000x2_1_0_0_1_wf : ScatterDims.WF S100000x2 S6500000x1 S6500000x2 [1] [0] [0] 1

variable [Facts₀]

def dot_S100000x20_S20x16_S100000x16_1_0_0_1_n_n : DotDims S100000x20 S20x16 S100000x16 where
  lhsContracting := [1]
  rhsContracting := [0]
  lhsNonContracting := [0]
  rhsNonContracting := [1]
  lhsBatch := []
  rhsBatch := []
  wf := dot_S100000x20_S20x16_S100000x16_1_0_0_1_n_n_wf
def scatter_S100000_S6500000x1_S6500000_n_0_0_1 : ScatterDims S100000 S6500000x1 S6500000 where
  updateWindowDims := []
  insertedWindowDims := [0]
  scatterDimsToOperandDims := [0]
  indexVectorDim := 1
  wf := scatter_S100000_S6500000x1_S6500000_n_0_0_1_wf
def gather_S100000_S6500000x1_S6500000_n_0_n_n_0_1_1 : GatherDims S100000 S6500000x1 S6500000 where
  offsetDims := []
  collapsedSliceDims := [0]
  operandBatchingDims := []
  startIndicesBatchingDims := []
  startIndexMap := [0]
  indexVectorDim := 1
  sliceSizes := ![1]
  wf := gather_S100000_S6500000x1_S6500000_n_0_n_n_0_1_1_wf
def gather_S100000x16_S6500000x1_S6500000x16_1_0_n_n_0_1_116 : GatherDims S100000x16 S6500000x1 S6500000x16 where
  offsetDims := [1]
  collapsedSliceDims := [0]
  operandBatchingDims := []
  startIndicesBatchingDims := []
  startIndexMap := [0]
  indexVectorDim := 1
  sliceSizes := ![1, 16]
  wf := gather_S100000x16_S6500000x1_S6500000x16_1_0_n_n_0_1_116_wf
def scatter_S100000x16_S6500000x1_S6500000x16_1_0_0_1 : ScatterDims S100000x16 S6500000x1 S6500000x16 where
  updateWindowDims := [1]
  insertedWindowDims := [0]
  scatterDimsToOperandDims := [0]
  indexVectorDim := 1
  wf := scatter_S100000x16_S6500000x1_S6500000x16_1_0_0_1_wf
def dot_S100000x16_S16x2_S100000x2_1_0_0_1_n_n : DotDims S100000x16 S16x2 S100000x2 where
  lhsContracting := [1]
  rhsContracting := [0]
  lhsNonContracting := [0]
  rhsNonContracting := [1]
  lhsBatch := []
  rhsBatch := []
  wf := dot_S100000x16_S16x2_S100000x2_1_0_0_1_n_n_wf
def gather_S100000x2_S6500000x1_S6500000x2_1_0_n_n_0_1_12 : GatherDims S100000x2 S6500000x1 S6500000x2 where
  offsetDims := [1]
  collapsedSliceDims := [0]
  operandBatchingDims := []
  startIndicesBatchingDims := []
  startIndexMap := [0]
  indexVectorDim := 1
  sliceSizes := ![1, 2]
  wf := gather_S100000x2_S6500000x1_S6500000x2_1_0_n_n_0_1_12_wf
def scatter_S100000x2_S6500000x1_S6500000x2_1_0_0_1 : ScatterDims S100000x2 S6500000x1 S6500000x2 where
  updateWindowDims := [1]
  insertedWindowDims := [0]
  scatterDimsToOperandDims := [0]
  indexVectorDim := 1
  wf := scatter_S100000x2_S6500000x1_S6500000x2_1_0_0_1_wf

class Facts : Prop extends Facts₀ where

variable [Facts]
-- ==== Proof.Stretches.lean ====
/-
  The host operations of the kernel's program, stretch by stretch, against the reference's stages.

  The program runs three stretches of host operations around its two projections. Every stretch applies to its inputs
  exactly the operations the reference applies to the same inputs, so each buffer a later step reads is, at the
  boundary where it is read, one of the reference's stage functions of the argument arrays:
    before the first projection — the target node of every message (the edges' first row followed by one self loop per
      node), the source node (the second row, likewise), and the edge weight 1/sqrt(deg(target)) · 1/sqrt(deg(source)),
      with deg the number of messages into a node and the weight of a node of degree zero set to zero;
    between the projections — the hidden layer relu(S(x·W1) + b1), where S gathers each message's source row, scales it
      by the edge weight and adds it into the target's row; it reads the first projection's result, so it is stated
      under the hypothesis that this result is the reference's product;
    after the second projection — log_softmax(S(h·W2) + b2) over each node's two columns, likewise under the
      hypothesis on the second projection's result.
  The reference computes the degrees and weights a second time for its second layer, with the same operations of the same
  index arrays: the same function (`weight_again`). Nothing here depends on what a float is: every statement holds
  over any family of float values.
-/
import proofs.«401206_j45509473469204_3_alg».proof.Proof.Gen.KernelIdeal.Frame
import proofs.«401206_j45509473469204_3_alg».proof.Proof.RefRead

set_option maxRecDepth 16384

noncomputable section

namespace Cert.KernelIdeal.Stretch

open Cert.KernelIdeal Cert.KernelIdeal.Gen
open Idealize.ShloMosaic Idealize.ShloMosaic.TcCoe Idealize.SL.Sem Idealize.ShloMosaic.StableHlo
open Cert.ReferenceIdeal.ReadP (val_main_v3 val_main_v6 val_main_v7 val_main_v30 val_main_v47 val_main_v48 val_main_v71 val_main_v88)

variable {F : FTy → Type} [FloatOps F]
variable (m : (ℓ : Loc nD τ sig) → Buf (Elt F) ℓ) (ρ : Dev nD → PrngReg)

/-- Reads what the one simplifier pass leaves unread: the operands inside a concatenation's list. -/
local macro "read_rest" : tactic =>
  `(tactic| repeat (first
      | rw [nullary_result] | rw [unary_result] | rw [binary_result] | rw [ternary_result] | rw [reshape_result]
      | (rw [nullary_result_ne]; rotate_left; decide)
      | (rw [unary_result_ne]; rotate_left; decide)
      | (rw [binary_result_ne]; rotate_left; decide)
      | (rw [ternary_result_ne]; rotate_left; decide)
      | (rw [reshape_result_ne]; rotate_left; decide)))

/-! ## Before the first projection -/

/-- The messages' target nodes. -/
theorem first_rows (c : Dev nD) : W3 m ρ c (Proc.devRef .tc main_v3) = val_main_v3 (F := F) (m ((c.tc : Thread nD τ).loc main_arg1)) := by
  dsimp only [W3, W2, W1, hostOps0, hostOps0_1, hostOps0_2]
  after_results_simp
  read_rest
  rfl
/-- The messages' source nodes. -/
theorem first_cols (c : Dev nD) : W3 m ρ c (Proc.devRef .tc main_v6) = val_main_v6 (F := F) (m ((c.tc : Thread nD τ).loc main_arg1)) := by
  dsimp only [W3, W2, W1, hostOps0, hostOps0_1, hostOps0_2]
  after_results_simp
  read_rest
  rfl
/-- The edge weights. -/
theorem first_weight (c : Dev nD) : W3 m ρ c (Proc.devRef .tc main_v29) = val_main_v30 (F := F) (m ((c.tc : Thread nD τ).loc main_arg1)) := by
  dsimp only [W3, W2, W1, hostOps0, hostOps0_1, hostOps0_2]
  after_results_simp
  read_rest
  try simp only [TRef.ofBuf, TRef.toBuf, cast_eq]
  rfl
/-- No operation of the stretch writes an argument. -/
theorem first_arg0 (c : Dev nD) : W3 m ρ c (Proc.devRef .tc main_arg0) = (m ((c.tc : Thread nD τ).loc main_arg0)) := by
  dsimp only [W3, W2, W1, hostOps0, hostOps0_1, hostOps0_2]
  after_results_simp <;> rfl
theorem first_arg2 (c : Dev nD) : W3 m ρ c (Proc.devRef .tc main_arg2) = (m ((c.tc : Thread nD τ).loc main_arg2)) := by
  dsimp only [W3, W2, W1, hostOps0, hostOps0_1, hostOps0_2]
  after_results_simp <;> rfl
theorem first_arg3 (c : Dev nD) : W3 m ρ c (Proc.devRef .tc main_arg3) = (m ((c.tc : Thread nD τ).loc main_arg3)) := by
  dsimp only [W3, W2, W1, hostOps0, hostOps0_1, hostOps0_2]
  after_results_simp <;> rfl
theorem first_arg4 (c : Dev nD) : W3 m ρ c (Proc.devRef .tc main_arg4) = (m ((c.tc : Thread nD τ).loc main_arg4)) := by
  dsimp only [W3, W2, W1, hostOps0, hostOps0_1, hostOps0_2]
  after_results_simp <;> rfl
theorem first_arg5 (c : Dev nD) : W3 m ρ c (Proc.devRef .tc main_arg5) = (m ((c.tc : Thread nD τ).loc main_arg5)) := by
  dsimp only [W3, W2, W1, hostOps0, hostOps0_1, hostOps0_2]
  after_results_simp <;> rfl

/-! ## Across the first projection: it writes its result array only -/

theorem mid_rows (c : Dev nD) : W4 m ρ c (Proc.devRef .tc main_v3) = val_main_v3 (F := F) (m ((c.tc : Thread nD τ).loc main_arg1)) :=
  (W4_of_ne m ρ c main_v3 (by decide)).trans (first_rows m ρ c)
theorem mid_cols (c : Dev nD) : W4 m ρ c (Proc.devRef .tc main_v6) = val_main_v6 (F := F) (m ((c.tc : Thread nD τ).loc main_arg1)) :=
  (W4_of_ne m ρ c main_v6 (by decide)).trans (first_cols m ρ c)
theorem mid_weight (c : Dev nD) : W4 m ρ c (Proc.devRef .tc main_v29) = val_main_v30 (F := F) (m ((c.tc : Thread nD τ).loc main_arg1)) :=
  (W4_of_ne m ρ c main_v29 (by decide)).trans (first_weight m ρ c)
theorem mid_arg3 (c : Dev nD) : W4 m ρ c (Proc.devRef .tc main_arg3) = (m ((c.tc : Thread nD τ).loc main_arg3)) :=
  (W4_of_ne m ρ c main_arg3 (by decide)).trans (first_arg3 m ρ c)
theorem mid_arg4 (c : Dev nD) : W4 m ρ c (Proc.devRef .tc main_arg4) = (m ((c.tc : Thread nD τ).loc main_arg4)) :=
  (W4_of_ne m ρ c main_arg4 (by decide)).trans (first_arg4 m ρ c)
theorem mid_arg5 (c : Dev nD) : W4 m ρ c (Proc.devRef .tc main_arg5) = (m ((c.tc : Thread nD τ).loc main_arg5)) :=
  (W4_of_ne m ρ c main_arg5 (by decide)).trans (first_arg5 m ρ c)

/-! ## Between the projections -/

/-- The hidden layer, given that the first projection's result is the reference's product. -/
theorem hidden (c : Dev nD)
    (h : W4 m ρ c (Proc.devRef .tc main_v30) = val_main_v7 (F := F) (m ((c.tc : Thread nD τ).loc main_arg0)) (m ((c.tc : Thread nD τ).loc main_arg2))) :
    W6 m ρ c (Proc.devRef .tc main_v47) = val_main_v47 (F := F) (m ((c.tc : Thread nD τ).loc main_arg0)) (m ((c.tc : Thread nD τ).loc main_arg1)) (m ((c.tc : Thread nD τ).loc main_arg2)) (m ((c.tc : Thread nD τ).loc main_arg3)) := by
  dsimp only [W6, W5, hostOps1, hostOps1_1]
  after_results_simp
  try simp only [TRef.ofBuf, TRef.toBuf, cast_eq]
  rw [h, mid_rows m ρ c, mid_cols m ρ c, mid_weight m ρ c, mid_arg3 m ρ c]
  rfl
/-- The stretch writes none of what the last stretch still reads. -/
theorem second_rows (c : Dev nD) : W6 m ρ c (Proc.devRef .tc main_v3) = val_main_v3 (F := F) (m ((c.tc : Thread nD τ).loc main_arg1)) := by
  dsimp only [W6, W5, hostOps1, hostOps1_1]
  after_results_simp <;> exact mid_rows m ρ c
theorem second_cols (c : Dev nD) : W6 m ρ c (Proc.devRef .tc main_v6) = val_main_v6 (F := F) (m ((c.tc : Thread nD τ).loc main_arg1)) := by
  dsimp only [W6, W5, hostOps1, hostOps1_1]
  after_results_simp <;> exact mid_cols m ρ c
theorem second_weight (c : Dev nD) : W6 m ρ c (Proc.devRef .tc main_v29) = val_main_v30 (F := F) (m ((c.tc : Thread nD τ).loc main_arg1)) := by
  dsimp only [W6, W5, hostOps1, hostOps1_1]
  after_results_simp <;> exact mid_weight m ρ c
theorem second_arg4 (c : Dev nD) : W6 m ρ c (Proc.devRef .tc main_arg4) = (m ((c.tc : Thread nD τ).loc main_arg4)) := by
  dsimp only [W6, W5, hostOps1, hostOps1_1]
  after_results_simp <;> exact mid_arg4 m ρ c
theorem second_arg5 (c : Dev nD) : W6 m ρ c (Proc.devRef .tc main_arg5) = (m ((c.tc : Thread nD τ).loc main_arg5)) := by
  dsimp only [W6, W5, hostOps1, hostOps1_1]
  after_results_simp <;> exact mid_arg5 m ρ c

/-! ## Across the second projection -/

/-- The reference's second computation of the edge weights is its first: the same operations of the same index arrays. -/
theorem weight_again (x1 : (⟨Cert.ReferenceIdeal.S2x6400000, .i32⟩ : BufTy).Contents (Elt F)) :
    val_main_v30 (F := F) x1 = val_main_v71 (F := F) x1 := rfl

theorem last_rows (c : Dev nD) : W7 m ρ c (Proc.devRef .tc main_v3) = val_main_v3 (F := F) (m ((c.tc : Thread nD τ).loc main_arg1)) :=
  (W7_of_ne m ρ c main_v3 (by decide)).trans (second_rows m ρ c)
theorem last_cols (c : Dev nD) : W7 m ρ c (Proc.devRef .tc main_v6) = val_main_v6 (F := F) (m ((c.tc : Thread nD τ).loc main_arg1)) :=
  (W7_of_ne m ρ c main_v6 (by decide)).trans (second_cols m ρ c)
theorem last_weight (c : Dev nD) : W7 m ρ c (Proc.devRef .tc main_v29) = val_main_v71 (F := F) (m ((c.tc : Thread nD τ).loc main_arg1)) :=
  ((W7_of_ne m ρ c main_v29 (by decide)).trans (second_weight m ρ c)).trans (weight_again _)
theorem last_arg5 (c : Dev nD) : W7 m ρ c (Proc.devRef .tc main_arg5) = (m ((c.tc : Thread nD τ).loc main_arg5)) :=
  (W7_of_ne m ρ c main_arg5 (by decide)).trans (second_arg5 m ρ c)

/-! ## After the second projection -/

/-- The result, given that the second projection's result is the reference's product. -/
theorem result (c : Dev nD)
    (h : W7 m ρ c (Proc.devRef .tc main_v48) = val_main_v48 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4))) :
    W9 m ρ c (Proc.devRef .tc main_v65) = val_main_v88 (F := F) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) := by
  dsimp only [W9, W8, hostOps2, hostOps2_1]
  after_results_simp
  try simp only [TRef.ofBuf, TRef.toBuf, cast_eq]
  rw [h, last_rows m ρ c, last_cols m ρ c, last_weight m ρ c, last_arg5 m ρ c]
  rfl

end Cert.KernelIdeal.Stretch

end
-- ==== Proof.Product0.lean ====
/-
  The first projection, x · W1, as the region leaves it.

  The call runs over ten grid points. Point t loads rows 10000·t … 10000·t + 9999 of x (all 20 columns) and the whole of
  W1, multiplies them into a zero accumulator and stores the [10000, 16] product, which is written back to the same
  rows of the result. Read over the extended reals, rounding the operands to bf16 is the identity and the product into a
  zero accumulator is the plain sum, so entry (r, j) of a block is the sum over k of x[10000·t + r, k] · W1[k, j]: the
  block is rows 10000·t … of the whole product `prod x W1`, whose entry (i, j) is the sum over k of x[i, k] · W1[k, j].
  The ten blocks tile the [100000, 16] result (row i lies in block i / 10000), so after the region the result array IS
  `prod x W1`.
-/
import proofs.«401206_j45509473469204_3_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Product0

open Cert.KernelIdeal Cert.KernelIdeal.Gen
open Idealize.ShloMosaic Idealize.ShloMosaic.TcCoe Idealize.SL.Sem
open Idealize.ShloMosaic.Pipeline (Dat)

/-! ## The whole product -/

/-- Row `i 0` of the left operand at column `k`. -/
abbrev lrow (i : S100000x16.Idx) (k : Fin 20) : S100000x20.Idx := fun a => match a with
  | ⟨0, _⟩ => ⟨(i 0).val, (i 0).isLt⟩
  | ⟨1, _⟩ => ⟨k.val, k.isLt⟩
/-- Row `k` of the right operand at column `i 1`. -/
abbrev rcol (i : S100000x16.Idx) (k : Fin 20) : S20x16.Idx := fun a => match a with
  | ⟨0, _⟩ => ⟨k.val, k.isLt⟩
  | ⟨1, _⟩ => ⟨(i 1).val, (i 1).isLt⟩

/-- The matrix product over the extended reals: entry (i, j) is the sum over k of x[i, k] · w[k, j]. -/
def prod (x : (⟨S100000x20, .f32⟩ : BufTy).Contents (Elt Ideal)) (w : (⟨S20x16, .f32⟩ : BufTy).Contents (Elt Ideal)) :
    (⟨S100000x16, .f32⟩ : BufTy).Contents (Elt Ideal) :=
  fun i => ∑ k : Fin 20, x (lrow i k) * w (rcol i k)

/-! ## One block of it: the body's stored value at an index -/

/-- Row `y 0` of the left block at column `k`. -/
abbrev lrowB (y : S10000x16.Idx) (k : Fin 20) : S10000x20.Idx := fun a => match a with
  | ⟨0, _⟩ => ⟨(y 0).val, (y 0).isLt⟩
  | ⟨1, _⟩ => ⟨k.val, k.isLt⟩
/-- Row `k` of the right operand at column `y 1`. -/
abbrev rcolB (y : S10000x16.Idx) (k : Fin 20) : S20x16.Idx := fun a => match a with
  | ⟨0, _⟩ => ⟨k.val, k.isLt⟩
  | ⟨1, _⟩ => ⟨(y 1).val, (y 1).isLt⟩

/-- The product's left index keeps the output's row … -/
theorem lhs_blk_0 (y : S10000x16.Idx) (q : dot_S10000x20_S20x16_S10000x16_1_0_0_1_n_n.contr.Idx) :
    (dot_S10000x20_S20x16_S10000x16_1_0_0_1_n_n.lhsIdx y q 0).val = (y 0).val := by
  unfold DotDims.lhsIdx
  rw [dif_neg (show ¬(0 : Fin S10000x20.rank) ∈ dot_S10000x20_S20x16_S10000x16_1_0_0_1_n_n.lhsBatch by decide), dif_pos (show (0 : Fin S10000x20.rank) ∈ dot_S10000x20_S20x16_S10000x16_1_0_0_1_n_n.lhsNonContracting by decide)]
  rfl
/-- … and runs over the contracted column; -/
theorem lhs_blk_1 (y : S10000x16.Idx) (q : dot_S10000x20_S20x16_S10000x16_1_0_0_1_n_n.contr.Idx) :
    (dot_S10000x20_S20x16_S10000x16_1_0_0_1_n_n.lhsIdx y q 1).val = (q ⟨0, by decide⟩).val :=
  dot_S10000x20_S20x16_S10000x16_1_0_0_1_n_n.lhsIdx_val_of_single rfl y q
/-- the right index runs over the contracted row … -/
theorem rhs_blk_0 (y : S10000x16.Idx) (q : dot_S10000x20_S20x16_S10000x16_1_0_0_1_n_n.contr.Idx) :
    (dot_S10000x20_S20x16_S10000x16_1_0_0_1_n_n.rhsIdx y q 0).val = (q ⟨0, by decide⟩).val :=
  dot_S10000x20_S20x16_S10000x16_1_0_0_1_n_n.rhsIdx_val_of_single rfl y q
/-- … and keeps the output's column. -/
theorem rhs_blk_1 (y : S10000x16.Idx) (q : dot_S10000x20_S20x16_S10000x16_1_0_0_1_n_n.contr.Idx) :
    (dot_S10000x20_S20x16_S10000x16_1_0_0_1_n_n.rhsIdx y q 1).val = (y 1).val := by
  unfold DotDims.rhsIdx
  rw [dif_neg (show ¬(1 : Fin S20x16.rank) ∈ dot_S10000x20_S20x16_S10000x16_1_0_0_1_n_n.rhsBatch by decide), dif_pos (show (1 : Fin S20x16.rank) ∈ dot_S10000x20_S20x16_S10000x16_1_0_0_1_n_n.rhsNonContracting by decide)]
  rfl

/-- What the body stores, at entry (r, j): rounding to bf16 is the identity over the extended reals and the accumulator
    is zero, so it is the sum over k of x0[r, k] · x1[k, j]. -/
theorem pay_apply (x0 : Vec Ideal S10000x20 .f32) (x1 : Vec Ideal S20x16 .f32) (y : S10000x16.Idx) :
    k0_pay1 (F := Ideal) x0 x1 y = ∑ k : Fin 20, x0 (lrowB y k) * x1 (rcolB y k) := by
  show FloatOps.matmul (F := Ideal) dot_S10000x20_S20x16_S10000x16_1_0_0_1_n_n none (truncf (F := Ideal) .bf16 x0 bitsLt_bf16_f32) (truncf (F := Ideal) .bf16 x1 bitsLt_bf16_f32) (constant (F := Ideal) S10000x16 .f32 0x00000000#32) y = _
  rw [Ideal.matmul_constant_zero_apply, ← Equiv.sum_comp (ValueIdx.contrEquiv1 dot_S10000x20_S20x16_S10000x16_1_0_0_1_n_n 20 rfl rfl).symm]
  refine Finset.sum_congr rfl fun k _ => ?_
  have hk := ValueIdx.contrEquiv1_symm_val dot_S10000x20_S20x16_S10000x16_1_0_0_1_n_n 20 rfl rfl k
  have el : dot_S10000x20_S20x16_S10000x16_1_0_0_1_n_n.lhsIdx y ((ValueIdx.contrEquiv1 dot_S10000x20_S20x16_S10000x16_1_0_0_1_n_n 20 rfl rfl).symm k) = lrowB y k := funext fun a => Fin.ext (by
    match a with
    | ⟨0, _⟩ => exact lhs_blk_0 _ _
    | ⟨1, _⟩ => exact (lhs_blk_1 _ _).trans hk)
  have er : dot_S10000x20_S20x16_S10000x16_1_0_0_1_n_n.rhsIdx y ((ValueIdx.contrEquiv1 dot_S10000x20_S20x16_S10000x16_1_0_0_1_n_n 20 rfl rfl).symm k) = rcolB y k := funext fun a => Fin.ext (by
    match a with
    | ⟨0, _⟩ => exact (rhs_blk_0 _ _).trans hk
    | ⟨1, _⟩ => exact rhs_blk_1 _ _)
  rw [el, er]
  rfl

/-- A block's entry is the whole product's entry `T` blocks of rows further down: if the left block is rows
    10000·T … of `X` and the right block is `Wt`, then the stored value at (r, j) is `prod X Wt` at (10000·T + r, j). -/
theorem pay_eq_prod (X : (⟨S100000x20, .f32⟩ : BufTy).Contents (Elt Ideal)) (Wt : (⟨S20x16, .f32⟩ : BufTy).Contents (Elt Ideal))
    (x0 : Vec Ideal S10000x20 .f32) (x1 : Vec Ideal S20x16 .f32) (T : Nat)
    (h0 : ∀ (z : S10000x20.Idx) (i : S100000x20.Idx), (i 0).val = T * 10000 + (z 0).val → (i 1).val = (z 1).val → x0 z = X i)
    (h1 : ∀ z : S20x16.Idx, x1 z = Wt z)
    (y : S10000x16.Idx) (i : S100000x16.Idx) (hi0 : (i 0).val = T * 10000 + (y 0).val) (hi1 : (i 1).val = (y 1).val) :
    k0_pay1 (F := Ideal) x0 x1 y = prod X Wt i := by
  rw [pay_apply]
  unfold prod
  refine Finset.sum_congr rfl fun k _ => ?_
  have e1 : rcolB y k = rcol i k := funext fun a => Fin.ext (by
    match a with
    | ⟨0, _⟩ => rfl
    | ⟨1, _⟩ => exact hi1.symm)
  rw [h0 (lrowB y k) (lrow i k) hi0 rfl, h1, e1]

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left operand's and the result's block move down one block of rows per
    point, the right operand's block stays. -/
theorem idx_facts : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

/-- WHAT POINT `t` WRITES BACK is block `t` of the whole product of the arrays as the region finds them. -/
theorem flushed_eq (c : Dev nD) (t : Fin cfg0.N) :
    (dat0 (F := Ideal) V c).flushed 2 t = ((cfg0.win 2).blk t).view.read (Elt Ideal) (prod (V c main_arg0) (V c main_arg2)) := by
  show (cfg0.win 2).cut (grid0.coords t) ((dat0 (F := Ideal) V c).after 2 t) = _
  rw [after0_2]
  unfold out0_2
  rw [View.canon_unit_zero hz]
  simp only [View.ld_unit_zero (S := S10000x20) hz, View.ld_unit_zero (S := S20x16) hz]
  obtain ⟨e0, e1, e2, e3, e4, e5⟩ := idx_facts t
  funext y
  show k0_pay1 (F := Ideal) (iblk0 V c 0 t) (iblk0 V c 1 t) y = prod (V c main_arg0) (V c main_arg2) (((cfg0.win 2).blk t).view.emb y)
  refine pay_eq_prod (V c main_arg0) (V c main_arg2) (iblk0 V c 0 t) (iblk0 V c 1 t) t.val ?_ ?_ y (((cfg0.win 2).blk t).view.emb y) ?_ ?_
  · intro z i hi0 hi1
    show V c main_arg0 (((cfg0.win 0).blk t).view.emb z) = V c main_arg0 i
    refine congrArg (V c main_arg0) (funext fun a => Fin.ext ?_)
    match a with
    | ⟨0, _⟩ => show win0_0.index t (0 : Fin 2) * 10000 + 1 * (z 0).val = (i 0).val; rw [e0, hi0]; omega
    | ⟨1, _⟩ => show win0_0.index t (1 : Fin 2) * 20 + 1 * (z 1).val = (i 1).val; rw [e1, hi1]; omega
  · intro z
    show V c main_arg2 (((cfg0.win 1).blk t).view.emb z) = V c main_arg2 z
    refine congrArg (V c main_arg2) (funext fun a => Fin.ext ?_)
    match a with
    | ⟨0, _⟩ => show win0_1.index t (0 : Fin 2) * 20 + 1 * (z 0).val = (z 0).val; rw [e2]; omega
    | ⟨1, _⟩ => show win0_1.index t (1 : Fin 2) * 16 + 1 * (z 1).val = (z 1).val; rw [e3]; omega
  · show win0_2.index t (0 : Fin 2) * 10000 + 1 * (y 0).val = t.val * 10000 + (y 0).val; rw [e4]; omega
  · show win0_2.index t (1 : Fin 2) * 16 + 1 * (y 1).val = (y 1).val; rw [e5]; omega

/-- An index of the result is in point `t`'s block iff each coordinate is in the block's range on its axis. -/
theorem mem_blk (t : Fin cfg0.N) (i : S100000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v30).slice (win0_2.rect t)).set ↔ _
  rw [View.set_slice_whole, Rect.mem_set_unit]
  exact Iff.rfl

/-- THE COVER: row `i 0` lies in the block of point `i 0 / 10000`, which is written back. -/
theorem cover (i : S100000x16.Idx) : ∃ t : Fin cfg0.N, (cfg0.win 2).flush t = true ∧ i ∈ ((cfg0.win 2).blk t).view.set := by
  have hi0 : (i 0).val < 100000 := (i 0).isLt
  have hi1 : (i 1).val < 16 := (i 1).isLt
  have hN : grid0.N = 10 := N_0
  have ht : (i 0).val / 10000 < cfg0.N := by show (i 0).val / 10000 < grid0.N; rw [hN]; omega
  refine ⟨⟨(i 0).val / 10000, ht⟩, flush0_2 _, ?_⟩
  rw [mem_blk]
  obtain ⟨-, -, -, -, e4, e5⟩ := idx_facts ⟨(i 0).val / 10000, ht⟩
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [e4]; dsimp only; omega
  | ⟨1, _⟩ =>
    show win0_2.index ⟨(i 0).val / 10000, ht⟩ (1 : Fin 2) * 16 ≤ (i 1).val ∧ (i 1).val < win0_2.index ⟨(i 0).val / 10000, ht⟩ (1 : Fin 2) * 16 + 16
    rw [e5]; omega

/-- THE RESULT ARRAY after the region is the whole product of the two operand arrays as the region finds them. -/
theorem arr_eq (c : Dev nD) : (dat0 (F := Ideal) V c).arrAt 2 cfg0.N = prod (V c main_arg0) (V c main_arg2) :=
  (dat0 (F := Ideal) V c).arrAt_eq_of_cover 2 (prod (V c main_arg0) (V c main_arg2)) (fun t _ => flushed_eq V c t) cover

end Cert.KernelIdeal.Product0

end
-- ==== Proof.Product1.lean ====
/-
  The second projection, h · W2, as the region leaves it (h the first layer's output after the relu).

  The same kernel at other sizes: ten grid points, point t loading rows 10000·t … 10000·t + 9999 of h (all 16 columns)
  and the whole of W2 and storing their [10000, 2] product into the same rows of the result. Over the extended reals entry
  (r, j) of a block is the sum over k of h[10000·t + r, k] · W2[k, j], the block is rows 10000·t … of the whole product
  `prod h W2`, and the ten blocks tile the [100000, 2] result: after the region the result array IS `prod h W2`.
-/
import proofs.«401206_j45509473469204_3_alg».proof.Proof.Gen.KernelIdeal.Frame
import Idealize.ShloMosaic.Lib.Pipeline.Value
import Idealize.ShloMosaic.Lib.ValueIdx
import Idealize.ShloMosaic.PureOps.Ideal.Laws

set_option maxRecDepth 16384

noncomputable section

namespace Cert.KernelIdeal.Product1

open Cert.KernelIdeal Cert.KernelIdeal.Gen
open Idealize.ShloMosaic Idealize.ShloMosaic.TcCoe Idealize.SL.Sem
open Idealize.ShloMosaic.Pipeline (Dat)

/-! ## The whole product -/

/-- Row `i 0` of the left operand at column `k`. -/
abbrev lrow (i : S100000x2.Idx) (k : Fin 16) : S100000x16.Idx := fun a => match a with
  | ⟨0, _⟩ => ⟨(i 0).val, (i 0).isLt⟩
  | ⟨1, _⟩ => ⟨k.val, k.isLt⟩
/-- Row `k` of the right operand at column `i 1`. -/
abbrev rcol (i : S100000x2.Idx) (k : Fin 16) : S16x2.Idx := fun a => match a with
  | ⟨0, _⟩ => ⟨k.val, k.isLt⟩
  | ⟨1, _⟩ => ⟨(i 1).val, (i 1).isLt⟩

/-- The matrix product over the extended reals: entry (i, j) is the sum over k of x[i, k] · w[k, j]. -/
def prod (x : (⟨S100000x16, .f32⟩ : BufTy).Contents (Elt Ideal)) (w : (⟨S16x2, .f32⟩ : BufTy).Contents (Elt Ideal)) :
    (⟨S100000x2, .f32⟩ : BufTy).Contents (Elt Ideal) :=
  fun i => ∑ k : Fin 16, x (lrow i k) * w (rcol i k)

/-! ## One block of it: the body's stored value at an index -/

/-- Row `y 0` of the left block at column `k`. -/
abbrev lrowB (y : S10000x2.Idx) (k : Fin 16) : S10000x16.Idx := fun a => match a with
  | ⟨0, _⟩ => ⟨(y 0).val, (y 0).isLt⟩
  | ⟨1, _⟩ => ⟨k.val, k.isLt⟩
/-- Row `k` of the right operand at column `y 1`. -/
abbrev rcolB (y : S10000x2.Idx) (k : Fin 16) : S16x2.Idx := fun a => match a with
  | ⟨0, _⟩ => ⟨k.val, k.isLt⟩
  | ⟨1, _⟩ => ⟨(y 1).val, (y 1).isLt⟩

/-- The product's left index keeps the output's row … -/
theorem lhs_blk_0 (y : S10000x2.Idx) (q : dot_S10000x16_S16x2_S10000x2_1_0_0_1_n_n.contr.Idx) :
    (dot_S10000x16_S16x2_S10000x2_1_0_0_1_n_n.lhsIdx y q 0).val = (y 0).val := by
  unfold DotDims.lhsIdx
  rw [dif_neg (show ¬(0 : Fin S10000x16.rank) ∈ dot_S10000x16_S16x2_S10000x2_1_0_0_1_n_n.lhsBatch by decide), dif_pos (show (0 : Fin S10000x16.rank) ∈ dot_S10000x16_S16x2_S10000x2_1_0_0_1_n_n.lhsNonContracting by decide)]
  rfl
/-- … and runs over the contracted column; -/
theorem lhs_blk_1 (y : S10000x2.Idx) (q : dot_S10000x16_S16x2_S10000x2_1_0_0_1_n_n.contr.Idx) :
    (dot_S10000x16_S16x2_S10000x2_1_0_0_1_n_n.lhsIdx y q 1).val = (q ⟨0, by decide⟩).val :=
  dot_S10000x16_S16x2_S10000x2_1_0_0_1_n_n.lhsIdx_val_of_single rfl y q
/-- the right index runs over the contracted row … -/
theorem rhs_blk_0 (y : S10000x2.Idx) (q : dot_S10000x16_S16x2_S10000x2_1_0_0_1_n_n.contr.Idx) :
    (dot_S10000x16_S16x2_S10000x2_1_0_0_1_n_n.rhsIdx y q 0).val = (q ⟨0, by decide⟩).val :=
  dot_S10000x16_S16x2_S10000x2_1_0_0_1_n_n.rhsIdx_val_of_single rfl y q
/-- … and keeps the output's column. -/
theorem rhs_blk_1 (y : S10000x2.Idx) (q : dot_S10000x16_S16x2_S10000x2_1_0_0_1_n_n.contr.Idx) :
    (dot_S10000x16_S16x2_S10000x2_1_0_0_1_n_n.rhsIdx y q 1).val = (y 1).val := by
  unfold DotDims.rhsIdx
  rw [dif_neg (show ¬(1 : Fin S16x2.rank) ∈ dot_S10000x16_S16x2_S10000x2_1_0_0_1_n_n.rhsBatch by decide), dif_pos (show (1 : Fin S16x2.rank) ∈ dot_S10000x16_S16x2_S10000x2_1_0_0_1_n_n.rhsNonContracting by decide)]
  rfl

/-- What the body stores, at entry (r, j): the cast of the loaded block to its own shape changes nothing, rounding to
    bf16 is the identity over the extended reals and the accumulator is zero, so it is the sum over k of x0[r, k] · x1[k, j]. -/
theorem pay_apply (x0 : Vec Ideal S10000x16 .f32) (x1 : Vec Ideal S16x2 .f32) (y : S10000x2.Idx) :
    k1_pay1 (F := Ideal) x0 x1 y = ∑ k : Fin 16, x0 (lrowB y k) * x1 (rcolB y k) := by
  show FloatOps.matmul (F := Ideal) dot_S10000x16_S16x2_S10000x2_1_0_0_1_n_n none (truncf (F := Ideal) .bf16 (shapeCast S10000x16 x0 shapeCasts_S10000x16_S10000x16) bitsLt_bf16_f32) (truncf (F := Ideal) .bf16 x1 bitsLt_bf16_f32) (constant (F := Ideal) S10000x2 .f32 0x00000000#32) y = _
  rw [shapeCast_self]
  rw [Ideal.matmul_constant_zero_apply, ← Equiv.sum_comp (ValueIdx.contrEquiv1 dot_S10000x16_S16x2_S10000x2_1_0_0_1_n_n 16 rfl rfl).symm]
  refine Finset.sum_congr rfl fun k _ => ?_
  have hk := ValueIdx.contrEquiv1_symm_val dot_S10000x16_S16x2_S10000x2_1_0_0_1_n_n 16 rfl rfl k
  have el : dot_S10000x16_S16x2_S10000x2_1_0_0_1_n_n.lhsIdx y ((ValueIdx.contrEquiv1 dot_S10000x16_S16x2_S10000x2_1_0_0_1_n_n 16 rfl rfl).symm k) = lrowB y k := funext fun a => Fin.ext (by
    match a with
    | ⟨0, _⟩ => exact lhs_blk_0 _ _
    | ⟨1, _⟩ => exact (lhs_blk_1 _ _).trans hk)
  have er : dot_S10000x16_S16x2_S10000x2_1_0_0_1_n_n.rhsIdx y ((ValueIdx.contrEquiv1 dot_S10000x16_S16x2_S10000x2_1_0_0_1_n_n 16 rfl rfl).symm k) = rcolB y k := funext fun a => Fin.ext (by
    match a with
    | ⟨0, _⟩ => exact (rhs_blk_0 _ _).trans hk
    | ⟨1, _⟩ => exact rhs_blk_1 _ _)
  rw [el, er]
  rfl

/-- A block's entry is the whole product's entry `T` blocks of rows further down: if the left block is rows
    10000·T … of `X` and the right block is `Wt`, then the stored value at (r, j) is `prod X Wt` at (10000·T + r, j). -/
theorem pay_eq_prod (X : (⟨S100000x16, .f32⟩ : BufTy).Contents (Elt Ideal)) (Wt : (⟨S16x2, .f32⟩ : BufTy).Contents (Elt Ideal))
    (x0 : Vec Ideal S10000x16 .f32) (x1 : Vec Ideal S16x2 .f32) (T : Nat)
    (h0 : ∀ (z : S10000x16.Idx) (i : S100000x16.Idx), (i 0).val = T * 10000 + (z 0).val → (i 1).val = (z 1).val → x0 z = X i)
    (h1 : ∀ z : S16x2.Idx, x1 z = Wt z)
    (y : S10000x2.Idx) (i : S100000x2.Idx) (hi0 : (i 0).val = T * 10000 + (y 0).val) (hi1 : (i 1).val = (y 1).val) :
    k1_pay1 (F := Ideal) x0 x1 y = prod X Wt i := by
  rw [pay_apply]
  unfold prod
  refine Finset.sum_congr rfl fun k _ => ?_
  have e1 : rcolB y k = rcol i k := funext fun a => Fin.ext (by
    match a with
    | ⟨0, _⟩ => rfl
    | ⟨1, _⟩ => exact hi1.symm)
  rw [h0 (lrowB y k) (lrow i k) hi0 rfl, h1, e1]

/-! ## From the blocks to the array -/

variable (V : (c : Dev nD) → (b : Ref sig .tc) → Buf (Elt Ideal) ((c : Thread nD τ).loc b))

theorem hz : (![0, 0] : Fin 2 → Nat) = fun _ => 0 := funext fun a => by fin_cases a <;> rfl

/-- The printed index maps over the grid: the left operand's and the result's block move down one block of rows per
    point, the right operand's block stays. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- WHAT POINT `t` WRITES BACK is block `t` of the whole product of the arrays as the region finds them. -/
theorem flushed_eq (c : Dev nD) (t : Fin cfg1.N) :
    (dat1 (F := Ideal) V c).flushed 2 t = ((cfg1.win 2).blk t).view.read (Elt Ideal) (prod (V c main_v47) (V c main_arg4)) := by
  show (cfg1.win 2).cut (grid1.coords t) ((dat1 (F := Ideal) V c).after 2 t) = _
  rw [after1_2]
  unfold out1_2
  rw [View.canon_unit_zero hz]
  simp only [View.ld_unit_zero (S := S10000x16) hz, View.ld_unit_zero (S := S16x2) hz]
  obtain ⟨e0, e1, e2, e3, e4, e5⟩ := idx_facts t
  funext y
  show k1_pay1 (F := Ideal) (iblk1 V c 0 t) (iblk1 V c 1 t) y = prod (V c main_v47) (V c main_arg4) (((cfg1.win 2).blk t).view.emb y)
  refine pay_eq_prod (V c main_v47) (V c main_arg4) (iblk1 V c 0 t) (iblk1 V c 1 t) t.val ?_ ?_ y (((cfg1.win 2).blk t).view.emb y) ?_ ?_
  · intro z i hi0 hi1
    show V c main_v47 (((cfg1.win 0).blk t).view.emb z) = V c main_v47 i
    refine congrArg (V c main_v47) (funext fun a => Fin.ext ?_)
    match a with
    | ⟨0, _⟩ => show win1_0.index t (0 : Fin 2) * 10000 + 1 * (z 0).val = (i 0).val; rw [e0, hi0]; omega
    | ⟨1, _⟩ => show win1_0.index t (1 : Fin 2) * 16 + 1 * (z 1).val = (i 1).val; rw [e1, hi1]; omega
  · intro z
    show V c main_arg4 (((cfg1.win 1).blk t).view.emb z) = V c main_arg4 z
    refine congrArg (V c main_arg4) (funext fun a => Fin.ext ?_)
    match a with
    | ⟨0, _⟩ => show win1_1.index t (0 : Fin 2) * 16 + 1 * (z 0).val = (z 0).val; rw [e2]; omega
    | ⟨1, _⟩ => show win1_1.index t (1 : Fin 2) * 2 + 1 * (z 1).val = (z 1).val; rw [e3]; omega
  · show win1_2.index t (0 : Fin 2) * 10000 + 1 * (y 0).val = t.val * 10000 + (y 0).val; rw [e4]; omega
  · show win1_2.index t (1 : Fin 2) * 2 + 1 * (y 1).val = (y 1).val; rw [e5]; omega

/-- An index of the result is in point `t`'s block iff each coordinate is in the block's range on its axis. -/
theorem mem_blk (t : Fin cfg1.N) (i : S100000x2.Idx) :
    i ∈ ((cfg1.win 2).blk t).view.set ↔ ∀ a : Fin 2, win1_2.index t a * S10000x2.size a ≤ (i a).val ∧ (i a).val < win1_2.index t a * S10000x2.size a + S10000x2.size a := by
  show i ∈ ((View.whole main_v48).slice (win1_2.rect t)).set ↔ _
  rw [View.set_slice_whole, Rect.mem_set_unit]
  exact Iff.rfl

/-- THE COVER: row `i 0` lies in the block of point `i 0 / 10000`, which is written back. -/
theorem cover (i : S100000x2.Idx) : ∃ t : Fin cfg1.N, (cfg1.win 2).flush t = true ∧ i ∈ ((cfg1.win 2).blk t).view.set := by
  have hi0 : (i 0).val < 100000 := (i 0).isLt
  have hi1 : (i 1).val < 2 := (i 1).isLt
  have hN : grid1.N = 10 := N_1
  have ht : (i 0).val / 10000 < cfg1.N := by show (i 0).val / 10000 < grid1.N; rw [hN]; omega
  refine ⟨⟨(i 0).val / 10000, ht⟩, flush1_2 _, ?_⟩
  rw [mem_blk]
  obtain ⟨-, -, -, -, e4, e5⟩ := idx_facts ⟨(i 0).val / 10000, ht⟩
  intro a
  match a with
  | ⟨0, _⟩ =>
    show win1_2.index ⟨(i 0).val / 10000, ht⟩ (0 : Fin 2) * 10000 ≤ (i 0).val ∧ (i 0).val < win1_2.index ⟨(i 0).val / 10000, ht⟩ (0 : Fin 2) * 10000 + 10000
    rw [e4]; dsimp only; omega
  | ⟨1, _⟩ =>
    show win1_2.index ⟨(i 0).val / 10000, ht⟩ (1 : Fin 2) * 2 ≤ (i 1).val ∧ (i 1).val < win1_2.index ⟨(i 0).val / 10000, ht⟩ (1 : Fin 2) * 2 + 2
    rw [e5]; omega

/-- THE RESULT ARRAY after the region is the whole product of the two operand arrays as the region finds them. -/
theorem arr_eq (c : Dev nD) : (dat1 (F := Ideal) V c).arrAt 2 cfg1.N = prod (V c main_v47) (V c main_arg4) :=
  (dat1 (F := Ideal) V c).arrAt_eq_of_cover 2 (prod (V c main_v47) (V c main_arg4)) (fun t _ => flushed_eq V c t) cover

end Cert.KernelIdeal.Product1

end
-- ==== Proof.KernelValue.lean ====
/-
  The kernel's result, over the extended reals, is the reference's last stage of the argument arrays.

  Over the extended reals the reference's `dot_general` at entry (i, j) is the sum over k of x[i, k] · w[k, j], which is
  the whole product the kernel's blocks assemble (one function, the same index maps). So the first projection's result
  array is the reference's product x · W1; the stretch between the projections then makes the hidden layer the
  reference's; the second projection's result array is the reference's product h · W2; and the last stretch makes the
  result the reference's log_softmax stage. The run of the program ends with that array in the result buffer.
-/
import proofs.«401206_j45509473469204_3_alg».proof.Proof.Stretches
import proofs.«401206_j45509473469204_3_alg».proof.Proof.Product0
import proofs.«401206_j45509473469204_3_alg».proof.Proof.Product1
import proofs.«401206_j45509473469204_3_alg».proof.Proof.KernelRun

set_option maxRecDepth 16384

noncomputable section

namespace Cert.KernelIdeal.KernelValue

open Cert.KernelIdeal Cert.KernelIdeal.Gen
open Idealize.ShloMosaic Idealize.ShloMosaic.TcCoe Idealize.SL.Sem
open Cert.ReferenceIdeal.ReadP (val_main_v7 val_main_v47 val_main_v48 val_main_v88 val_main_v7_apply val_main_v48_apply)

variable (m : (ℓ : Loc nD τ sig) → Buf (Elt Ideal) ℓ) (ρ : Dev nD → PrngReg)

/-- The reference's first `dot_general` is the whole product: entry (i, j) of both is the sum over k of x[i, k] · w[k, j]. -/
theorem ref_product0 (x0 : (⟨Cert.ReferenceIdeal.S100000x20, .f32⟩ : BufTy).Contents (Elt Ideal)) (x2 : (⟨Cert.ReferenceIdeal.S20x16, .f32⟩ : BufTy).Contents (Elt Ideal)) :
    val_main_v7 (F := Ideal) x0 x2 = Product0.prod x0 x2 := by
  funext i
  rw [val_main_v7_apply]
  rfl

/-- The reference's second `dot_general`, of its hidden layer, likewise. -/
theorem ref_product1 (x0 : (⟨Cert.ReferenceIdeal.S100000x20, .f32⟩ : BufTy).Contents (Elt Ideal)) (x1 : (⟨Cert.ReferenceIdeal.S2x6400000, .i32⟩ : BufTy).Contents (Elt Ideal))
    (x2 : (⟨Cert.ReferenceIdeal.S20x16, .f32⟩ : BufTy).Contents (Elt Ideal)) (x3 : (⟨Cert.ReferenceIdeal.S16, .f32⟩ : BufTy).Contents (Elt Ideal)) (x4 : (⟨Cert.ReferenceIdeal.S16x2, .f32⟩ : BufTy).Contents (Elt Ideal)) :
    val_main_v48 (F := Ideal) x0 x1 x2 x3 x4 = Product1.prod (val_main_v47 (F := Ideal) x0 x1 x2 x3) x4 := by
  funext i
  rw [val_main_v48_apply]
  rfl

/-- After the first projection its result array holds the reference's product of the arguments x and W1. -/
theorem first_product (c : Dev nD) :
    W4 m ρ c (Proc.devRef .tc main_v30) = val_main_v7 (F := Ideal) (m ((c.tc : Thread nD τ).loc main_arg0)) (m ((c.tc : Thread nD τ).loc main_arg2)) := by
  rw [ref_product0]
  refine (W4_arr m ρ c 2).trans ?_
  refine (Product0.arr_eq (V3 m ρ) c).trans ?_
  show Product0.prod (W3 m ρ c (Proc.devRef .tc main_arg0)) (W3 m ρ c (Proc.devRef .tc main_arg2)) = _
  rw [Stretch.first_arg0 m ρ c, Stretch.first_arg2 m ρ c]

/-- After the second projection its result array holds the reference's product of its hidden layer and W2. -/
theorem second_product (c : Dev nD) :
    W7 m ρ c (Proc.devRef .tc main_v48) = val_main_v48 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) := by
  rw [ref_product1]
  refine (W7_arr m ρ c 2).trans ?_
  refine (Product1.arr_eq (V6 m ρ) c).trans ?_
  show Product1.prod (W6 m ρ c (Proc.devRef .tc main_v47)) (W6 m ρ c (Proc.devRef .tc main_arg4)) = _
  rw [Stretch.hidden m ρ c (first_product m ρ c), Stretch.second_arg4 m ρ c]

/-- THE RESULT: at the last boundary the result buffer holds the reference's last stage of the six argument arrays. -/
theorem value (c : Dev nD) :
    W9 m ρ c (Proc.devRef .tc main_v65) = val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) :=
  Stretch.result m ρ c (second_product m ρ c)

/-- THE RUN, READ: every weakly fair execution terminates with the result buffer at that array and the arguments unchanged. -/
theorem run : θ_run defs (onTc (τ := τ) (main (F := Ideal))) ⟨m, fun _ => 0, ρ⟩ (fun r => ∀ c : Dev nD,
      r.2.mem ((c.tc : Thread nD τ).loc main_v65) = val_main_v88 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun r h c => ⟨(h c).1.trans (value m ρ c), (h c).2⟩) (Cert.KernelIdeal.GenRun.run_value m ρ)

end Cert.KernelIdeal.KernelValue

end
-- ==== Proof.lean ====
/-
  A two-layer graph convolution with self loops and a closing log_softmax: kernel against reference, over the extended reals.

  Both programs compute, from the node features x, the edge list, and the weights and biases of the two layers,
      log_softmax( S( relu( S(x · W1) + b1 ) · W2 ) + b2 ),
  where S gathers each message's source row, scales it by 1/sqrt(deg(target)) · 1/sqrt(deg(source)) and adds it into
  the target's row (messages are the edges and one self loop per node; an out-of-range node index is treated by both
  programs' gathers and scatters in the same way, since they are the same operations). They differ in two places only.
  The kernel computes the two projections x · W1 and h · W2 in a kernel over ten blocks of 10000 rows, rounding the
  operands to bf16 and accumulating from zero, where the reference applies one `dot_general`: over the extended reals
  rounding is the identity and both are the same sum over k, and the ten blocks tile the result (Proof/Product0.lean,
  Proof/Product1.lean). And the reference computes the degrees and edge weights once per layer where the kernel computes
  them once: the same function of the edge list (Proof/Stretches.lean). Every other operation is applied by both
  programs to the same values in the same order, so the kernel's result array is the reference's last stage of the six
  argument arrays (Proof/KernelValue.lean), which is also what the reference's own run ends with.

  The three frames: the kernel's two, word level and idealized, are the generated frames of a program of two regions
  among host operations; the reference's is its run with the result forgotten. The idealization rewrote no operation,
  so nothing is owed for it.
-/
import proofs.«401206_j45509473469204_3_alg».proof.Defs
import proofs.«401206_j45509473469204_3_alg».proof.Proof.Gen.Kernel
import proofs.«401206_j45509473469204_3_alg».proof.Proof.Gen.Kernel.Skeleton
import proofs.«401206_j45509473469204_3_alg».proof.Proof.Gen.Kernel.Launch
import proofs.«401206_j45509473469204_3_alg».proof.Proof.Gen.Kernel.Points
import proofs.«401206_j45509473469204_3_alg».proof.Proof.Gen.Kernel.Frame
import proofs.«401206_j45509473469204_3_alg».proof.Proof.Gen.KernelIdeal
import proofs.«401206_j45509473469204_3_alg».proof.Proof.Gen.KernelIdeal.Skeleton
import proofs.«401206_j45509473469204_3_alg».proof.Proof.Gen.KernelIdeal.Launch
import proofs.«401206_j45509473469204_3_alg».proof.Proof.Gen.KernelIdeal.Points
import proofs.«401206_j45509473469204_3_alg».proof.Proof.Gen.KernelIdeal.Frame
import proofs.«401206_j45509473469204_3_alg».proof.Proof.Gen.ReferenceIdeal
import proofs.«401206_j45509473469204_3_alg».proof.Proof.Gen.Pre_finite_inputs
import proofs.«401206_j45509473469204_3_alg».proof.Proof.RefRun
import proofs.«401206_j45509473469204_3_alg».proof.Proof.RefRead
import proofs.«401206_j45509473469204_3_alg».proof.Proof.KernelValue
import Idealize.ShloMosaic.Adequacy
import Idealize.ShloMosaic.Init

noncomputable section

namespace Cert.Proof

open Idealize.ShloMosaic Idealize.SL.Sem

/-- The word-level kernel runs and leaves its arguments unchanged. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- The reference runs and leaves its arguments unchanged: its run, with the result forgotten. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the six arguments both programs end with the same result array: the reference's last
    stage of the arguments — the kernel's by its value, the reference's by its run read through its stages. -/
theorem algebraic : Cert.algebraic_KernelIdeal_ReferenceIdeal := by
  intro m ρ m' ρ' _ hagree
  refine ⟨fun c => Cert.ReferenceIdeal.ReadP.val_main_v88 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)),
    Cert.KernelIdeal.KernelValue.run m ρ, ?_⟩
  refine (θ_run Cert.ReferenceIdeal.defs _ _).mono (fun _ h c => ⟨(h c).1.trans ?_, (h c).2⟩)
    (Cert.ReferenceIdeal.ValueP.run (F := Ideal) m' ρ')
  rw [Cert.ReferenceIdeal.ReadP.val_main_v88_eq, (hagree c).1, (hagree c).2.1, (hagree c).2.2.1, (hagree c).2.2.2.1,
    (hagree c).2.2.2.2.1, (hagree c).2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
